-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg4
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x7 .f32) (main_arg4 : FVec F S7 .f32) (main_arg5 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg3
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x7 : Shape := ⟨2, ![100000, 7]⟩
abbrev S5000x7 : Shape := ⟨2, ![5000, 7]⟩
abbrev S3300000x7 : Shape := ⟨2, ![3300000, 7]⟩
abbrev S1x7 : Shape := ⟨2, ![1, 7]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x7, .f32⟩
  | .hbm, ⟨4, _⟩ => ⟨S7, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x7, .f32⟩
  | .local _ .vmem, ⟨8, _⟩ => ⟨S5000x7, .f32⟩
  | .local _ .vmem, ⟨9, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 89
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x7, .f32⟩
  | .hbm, ⟨4, _⟩ => ⟨S7, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.GcnSpec.lean ====
/-
  A two-layer graph convolution over N = 100000 nodes and E = 3200000 directed edges, as the pure functions its host
  stretches compute. Both programs of this certificate run the SAME host operations around their two feature
  transforms (h ↦ h·W); they differ only in how each transform is computed. So each stretch is named here once,
  as a function of the buffers it reads, with the transform's result a parameter:

    endpoints   src = edge_index[0] ++ (0 … N-1),  tgt = edge_index[1] ++ (0 … N-1)      (self loops appended)
    wrap v      v + N where v < 0, else v                                                (negative indices count from the end)
    degree      deg = scatter-add of ones at tgt;  dinv = deg^(-1/2) where deg > 0, else 0
    coefficient nrm = dinv[wrap src] · dinv[wrap tgt]                                    (one per edge)
    aggregate   out = scatter-add at tgt of (t[wrap src] · nrm) + bias                   (t the transformed features)
    layer 1     relu (aggregate (x·W1) b1);   layer 2   aggregate (h·W2) b2

  and the transform itself as the matrix product read at an index: row r, column q is the sum over k of
  x[r, k] · w[k, q].
-/
import proofs.«172233_j54262616818367_1_alg».proof.Proof.Gen.KernelIdeal
import proofs.«172233_j54262616818367_1_alg».proof.Proof.LibPlainDot

noncomputable section

namespace Cert.KernelIdeal.Gcn

open Idealize.ShloMosaic Idealize.ShloMosaic.ValueIdx Cert.KernelIdeal
open Cert.KernelIdeal.Facts₀

variable {F : FTy → Type} [FloatOps F]

/-- Row `r` (0 or 1) of the edge list is cut out below; then the node numbers 0 … N-1 are appended: every node is its
    own neighbour. The edges' sources … -/
def sources (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- … and their targets. -/
def targets (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A negative node number counts from the end: N is added to it. As a column of start indices for a gather. -/
def wrapped (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- A node's degree: the number of edges (self loop included) that end at it. -/
def degree (tgt : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 tgt)
    (broadcastInDim S3300000 ![] bcast_S_S3300000 (constant (F := F) S_ .f32 0x3F800000#32))

/-- deg^(-1/2) where the degree is positive, zero elsewhere. -/
def invSqrtDegree (tgt : (⟨S3300000, .i32⟩ : BufTy).Contents (Elt F)) : (⟨S100000, .f32⟩ : BufTy).Contents (Elt F) :=
  select (cmpf (F := F) .ogt (degree (F := F) tgt) (broadcastInDim S100000 ![] bcast_S_S100000 (constant (F := F) S_ .f32 0x00000000#32)))
    (Host.rsqrt (degree (F := F) tgt))
    (broadcastInDim S100000 ![] bcast_S_S100000 (id (constant (F := F) S_ .f32 0x00000000#32)))

/-- The coefficient of an edge: the product of deg^(-1/2) at its two ends. -/
def coefficient (src tgt : (⟨S3300000, .i32⟩ : BufTy).Contents (Elt F)) : (⟨S3300000, .f32⟩ : BufTy).Contents (Elt F) :=
  mulf (Host.gather gather_S100000_S3300000x1_S3300000_n_0_n_n_0_1_1 (invSqrtDegree (F := F) tgt) (wrapped (F := F) src))
    (Host.gather gather_S100000_S3300000x1_S3300000_n_0_n_n_0_1_1 (invSqrtDegree (F := F) tgt) (wrapped (F := F) tgt))

/-- Layer 1 after its transform `t`: every edge carries its source's row of `t` times the edge's coefficient to its
    target, where the rows are added up; then the bias, then relu. -/
def hidden (t : (⟨S100000x16, .f32⟩ : BufTy).Contents (Elt F)) (src tgt : (⟨S3300000, .i32⟩ : BufTy).Contents (Elt F)) (nrm : (⟨S3300000, .f32⟩ : BufTy).Contents (Elt F)) (b : (⟨S16, .f32⟩ : BufTy).Contents (Elt F)) :
    (⟨S100000x16, .f32⟩ : BufTy).Contents (Elt F) :=
  maximumf
    (addf
      (Host.scatterAdd scatter_S100000x16_S3300000x1_S3300000x16_1_0_0_1
        (broadcastInDim S100000x16 ![] bcast_S_S100000x16 (constant (F := F) S_ .f32 0x00000000#32))
        (broadcastInDim S3300000x1 ![0] bcast_S3300000_S3300000x1_0 tgt)
        (mulf (Host.gather gather_S100000x16_S3300000x1_S3300000x16_1_0_n_n_0_1_116 t (wrapped (F := F) src))
          (broadcastInDim S3300000x16 ![0, 1] bcast_S3300000x1_S3300000x16_0_1 (broadcastInDim S3300000x1 ![0] bcast_S3300000_S3300000x1_0 nrm))))
      (broadcastInDim S100000x16 ![0, 1] bcast_S1x16_S100000x16_0_1 (broadcastInDim S1x16 ![1] bcast_S16_S1x16_1 b)))
    (broadcastInDim S100000x16 ![] bcast_S_S100000x16 (constant (F := F) S_ .f32 0x00000000#32))

/-- Layer 2 after its transform `t`: the same aggregation over seven columns, then the bias. -/
def logits (t : (⟨S100000x7, .f32⟩ : BufTy).Contents (Elt F)) (src tgt : (⟨S3300000, .i32⟩ : BufTy).Contents (Elt F)) (nrm : (⟨S3300000, .f32⟩ : BufTy).Contents (Elt F)) (b : (⟨S7, .f32⟩ : BufTy).Contents (Elt F)) :
    (⟨S100000x7, .f32⟩ : BufTy).Contents (Elt F) :=
  addf
    (Host.scatterAdd scatter_S100000x7_S3300000x1_S3300000x7_1_0_0_1
      (broadcastInDim S100000x7 ![] bcast_S_S100000x7 (constant (F := F) S_ .f32 0x00000000#32))
      (broadcastInDim S3300000x1 ![0] bcast_S3300000_S3300000x1_0 tgt)
      (mulf (Host.gather gather_S100000x7_S3300000x1_S3300000x7_1_0_n_n_0_1_17 t (wrapped (F := F) src))
        (broadcastInDim S3300000x7 ![0, 1] bcast_S3300000x1_S3300000x7_0_1 (broadcastInDim S3300000x1 ![0] bcast_S3300000_S3300000x1_0 nrm))))
    (broadcastInDim S100000x7 ![0, 1] bcast_S1x7_S100000x7_0_1 (broadcastInDim S1x7 ![1] bcast_S7_S1x7_1 b))

/-- The feature transform over the extended reals: entry (r, q) of x·w is the sum over k of x[r, k] · w[k, q]. -/
def product (M K N : Nat) (x : (⟨2, ![M, K]⟩ : Shape).Idx → EReal) (w : (⟨2, ![K, N]⟩ : Shape).Idx → EReal) :
    (⟨2, ![M, N]⟩ : Shape).Idx → EReal :=
  fun j => ∑ k : Fin K, x (ix2 (n0 := M) (n1 := K) ⟨(j 0).val, (j 0).isLt⟩ k) * w (ix2 (n0 := K) (n1 := N) k ⟨(j 1).val, (j 1).isLt⟩)

end Cert.KernelIdeal.Gcn

end
-- ==== Proof.Stretches.lean ====
/-
  What the idealized kernel's @main leaves in its buffers between its two kernel regions, read back stretch by stretch.
  @main is: a stretch of host operations (the graph's preprocessing: endpoints with self loops, degrees, one
  coefficient per edge); region 0 (the first feature transform, written to main_v30); a stretch (layer 1's aggregation,
  bias and relu, written to main_v47); region 1 (the second transform, main_v48); a last stretch (layer 2's aggregation
  and bias, main_v64). A region changes only its own result array; a stretch changes only the buffers its operations
  write. So each buffer a later step reads still holds what the step that wrote it left there, and each stretch's
  result is the specification's function (Proof/GcnSpec.lean) of the buffers that stretch reads.
-/
import proofs.«172233_j54262616818367_1_alg».proof.Proof.Gen.KernelIdeal.Frame
import proofs.«172233_j54262616818367_1_alg».proof.Proof.GcnSpec

set_option maxRecDepth 16384

noncomputable section

namespace Cert.KernelIdeal.Stretches

open Idealize.ShloMosaic Idealize.ShloMosaic.TcCoe Idealize.ShloMosaic.StableHlo Idealize.SL.Sem
open Idealize.ShloMosaic.Pipeline (Dat Cfg Window)
open Cert.KernelIdeal Cert.KernelIdeal.Gen Cert.KernelIdeal.Gcn

variable {F : FTy → Type} [FloatOps F]
variable (m : (ℓ : Loc nD τ sig) → Buf (Elt F) ℓ) (ρ : Dev nD → PrngReg)

/-! ## Before region 0: the preprocessing, and the arguments as launched -/

/-- The edges' sources, self loops appended. -/
theorem sources_at_entry0 (c : Dev nD) :
    W3 m ρ c (Proc.devRef .tc main_v3) = sources (F := F) (m ((c : Thread nD τ).loc main_arg5)) := by
  dsimp only [W3, W2, W1, hostOps0, hostOps0_1, hostOps0_2]
  after_results_simp
  rfl

/-- The edges' targets, self loops appended. -/
theorem targets_at_entry0 (c : Dev nD) :
    W3 m ρ c (Proc.devRef .tc main_v6) = targets (F := F) (m ((c : Thread nD τ).loc main_arg5)) := by
  dsimp only [W3, W2, W1, hostOps0, hostOps0_1, hostOps0_2]
  after_results_simp
  rfl

/-- One coefficient per edge. -/
theorem coefficient_at_entry0 (c : Dev nD) :
    W3 m ρ c (Proc.devRef .tc main_v29)
      = coefficient (F := F) (sources (F := F) (m ((c : Thread nD τ).loc main_arg5))) (targets (F := F) (m ((c : Thread nD τ).loc main_arg5))) := by
  dsimp only [W3, W2, W1, hostOps0, hostOps0_1, hostOps0_2]
  after_results_simp
  rfl

/-- No host operation before region 0 writes an argument. -/
theorem arg0_at_entry0 (c : Dev nD) : W3 m ρ c (Proc.devRef .tc main_arg0) = m ((c : Thread nD τ).loc main_arg0) := by
  dsimp only [W3, W2, W1, hostOps0, hostOps0_1, hostOps0_2]
  after_results_simp
theorem arg1_at_entry0 (c : Dev nD) : W3 m ρ c (Proc.devRef .tc main_arg1) = m ((c : Thread nD τ).loc main_arg1) := by
  dsimp only [W3, W2, W1, hostOps0, hostOps0_1, hostOps0_2]
  after_results_simp
theorem arg2_at_entry0 (c : Dev nD) : W3 m ρ c (Proc.devRef .tc main_arg2) = m ((c : Thread nD τ).loc main_arg2) := by
  dsimp only [W3, W2, W1, hostOps0, hostOps0_1, hostOps0_2]
  after_results_simp
theorem arg3_at_entry0 (c : Dev nD) : W3 m ρ c (Proc.devRef .tc main_arg3) = m ((c : Thread nD τ).loc main_arg3) := by
  dsimp only [W3, W2, W1, hostOps0, hostOps0_1, hostOps0_2]
  after_results_simp
theorem arg4_at_entry0 (c : Dev nD) : W3 m ρ c (Proc.devRef .tc main_arg4) = m ((c : Thread nD τ).loc main_arg4) := by
  dsimp only [W3, W2, W1, hostOps0, hostOps0_1, hostOps0_2]
  after_results_simp

/-! ## Between the regions: layer 1 -/

/-- Layer 1's output is the specification's `hidden` of region 0's result and of what the buffers it reads held when
    region 0 ended. -/
theorem hidden_at_entry1 (c : Dev nD) :
    W6 m ρ c (Proc.devRef .tc main_v47)
      = hidden (F := F) (W4 m ρ c (Proc.devRef .tc main_v30)) (W4 m ρ c (Proc.devRef .tc main_v3)) (W4 m ρ c (Proc.devRef .tc main_v6))
          (W4 m ρ c (Proc.devRef .tc main_v29)) (W4 m ρ c (Proc.devRef .tc main_arg2)) := by
  dsimp only [W6, W5, hostOps1, hostOps1_1]
  after_results_simp
  rfl

/-- Layer 1 writes none of the buffers layer 2 reads besides its own output. -/
theorem kept_through_layer1 (c : Dev nD) :
    W6 m ρ c (Proc.devRef .tc main_v3) = W4 m ρ c (Proc.devRef .tc main_v3)
    ∧ W6 m ρ c (Proc.devRef .tc main_v6) = W4 m ρ c (Proc.devRef .tc main_v6)
    ∧ W6 m ρ c (Proc.devRef .tc main_v29) = W4 m ρ c (Proc.devRef .tc main_v29)
    ∧ W6 m ρ c (Proc.devRef .tc main_arg3) = W4 m ρ c (Proc.devRef .tc main_arg3)
    ∧ W6 m ρ c (Proc.devRef .tc main_arg4) = W4 m ρ c (Proc.devRef .tc main_arg4) := by
  dsimp only [W6, W5, hostOps1, hostOps1_1]
  refine ⟨?_, ?_, ?_, ?_, ?_⟩ <;> (after_results_simp <;> rfl)

/-! ## After region 1: layer 2 -/

/-- Layer 2's output is the specification's `logits` of region 1's result and of what the buffers it reads held when
    region 1 ended; layer 1's output is not written again. -/
theorem logits_at_return (c : Dev nD) :
    W8 m ρ c (Proc.devRef .tc main_v64)
      = logits (F := F) (W7 m ρ c (Proc.devRef .tc main_v48)) (W7 m ρ c (Proc.devRef .tc main_v3)) (W7 m ρ c (Proc.devRef .tc main_v6))
          (W7 m ρ c (Proc.devRef .tc main_v29)) (W7 m ρ c (Proc.devRef .tc main_arg4)) := by
  dsimp only [W8, hostOps2]
  after_results_simp
  rfl

theorem hidden_at_return (c : Dev nD) :
    W8 m ρ c (Proc.devRef .tc main_v47) = W7 m ρ c (Proc.devRef .tc main_v47) := by
  dsimp only [W8, hostOps2]
  after_results_simp

end Cert.KernelIdeal.Stretches

end
-- ==== Proof.Transform1.lean ====
/-
  The first feature transform, the input features x times the first weight matrix, as the kernel computes it: the 100000 rows are cut
  into 20 blocks of 5000 consecutive rows; grid point t loads block t of the left operand and the whole right operand,
  multiplies them, and writes the 5000 × 16 product back as block t of the result. Over the extended
  reals a narrowing of the float format changes no value, so entry (r, q) of the product of block t is the sum over k
  of left[5000·t + r, k] · right[k, q]: block t of the product of the whole arrays. The 20 blocks tile the result
  (row i lies in block i / 5000), so when the region ends the result array IS that product, whatever the arrays held
  when the region was entered.
-/
import proofs.«172233_j54262616818367_1_alg».proof.Proof.Gen.KernelIdeal.Frame
import proofs.«172233_j54262616818367_1_alg».proof.Proof.GcnSpec
import Idealize.ShloMosaic.Lib.Pipeline.Value

set_option maxRecDepth 16384

noncomputable section

namespace Cert.KernelIdeal.Transform1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Gcn

-- the buffers' contents when the region is entered: any
variable (V : (c : Dev nD) → (b : Ref sig .tc) → Buf (Elt Ideal) ((c : Thread nD τ).loc b))

/-- A whole block is read and written from its corner. -/
theorem corner : (![0, 0] : Fin 2 → Nat) = fun _ => 0 := funext fun a => by fin_cases a <;> rfl

/-- What the body stores, at an entry (r, q): the sum over k of the loaded left block at (r, k) times the loaded right
    operand at (k, q). -/
theorem stored_apply (x0 : Vec Ideal S5000x512 .f32) (x1 : Vec Ideal S512x16 .f32) (j : S5000x16.Idx) :
    k0_pay1 x0 x1 j = ∑ k : Fin 512, x0 (ix2 (n0 := 5000) (n1 := 512) ⟨(j 0).val, (j 0).isLt⟩ k) * x1 (ix2 (n0 := 512) (n1 := 16) k ⟨(j 1).val, (j 1).isLt⟩) := by
  unfold k0_pay1
  exact PlainDot.matmul_zero_apply 5000 512 16 _ _ j

/-- Where the three windows' blocks lie, for each of the 20 grid points: the left operand's and the result's block t
    start at row block t and column block 0; the right operand's one block is the whole array. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the whole arrays. -/
theorem flushed_eq (c : Dev nD) (t : Fin cfg0.N) :
    (dat0 V c).flushed 2 t
      = ((cfg0.win 2).blk t).view.read (Elt Ideal) (product 100000 512 16 (V c main_arg0) (V c main_arg1)) := by
  show (cfg0.win 2).cut (grid0.coords t) ((dat0 V c).after 2 t) = _
  rw [after0_2]
  unfold out0_2
  rw [View.canon_unit_zero corner]
  simp only [View.ld_unit_zero (S := S5000x512) corner, View.ld_unit_zero (S := S512x16) corner]
  obtain ⟨e0, e1, e2, e3, e4, e5⟩ := block_indices t
  funext j
  show k0_pay1 (iblk0 V c 0 t) (iblk0 V c 1 t) j
    = product 100000 512 16 (V c main_arg0) (V c main_arg1) (((cfg0.win 2).blk t).view.emb j)
  refine (stored_apply (iblk0 V c 0 t) (iblk0 V c 1 t) j).trans ?_
  unfold product
  refine Finset.sum_congr rfl fun k _ => ?_
  -- the left block's entry (r, k) is the left array's entry (5000·t + r, k)
  have hx : iblk0 V c 0 t (ix2 (n0 := 5000) (n1 := 512) ⟨(j 0).val, (j 0).isLt⟩ k)
      = V c main_arg0 (ix2 (n0 := 100000) (n1 := 512)
          ⟨((((cfg0.win 2).blk t).view.emb j) 0).val, ((((cfg0.win 2).blk t).view.emb j) 0).isLt⟩ k) := by
    show V c main_arg0 (((cfg0.win 0).blk t).view.emb (ix2 (n0 := 5000) (n1 := 512) ⟨(j 0).val, (j 0).isLt⟩ k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  -- the right operand's one block is the whole array
  have hw : iblk0 V c 1 t (ix2 (n0 := 512) (n1 := 16) k ⟨(j 1).val, (j 1).isLt⟩)
      = V c main_arg1 (ix2 (n0 := 512) (n1 := 16) k
          ⟨((((cfg0.win 2).blk t).view.emb j) 1).val, ((((cfg0.win 2).blk t).view.emb j) 1).isLt⟩) := by
    show V c main_arg1 (((cfg0.win 1).blk t).view.emb (ix2 (n0 := 512) (n1 := 16) k ⟨(j 1).val, (j 1).isLt⟩)) = _
    refine congrArg (V c main_arg1) (funext fun a => Fin.ext ?_)
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  rw [hx, hw]

/-- An index of the result array lies in point t's block iff each coordinate lies in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Every entry of the result lies in some point's block: row i in block i / 5000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 5000, by show (i 0).val / 5000 < 20; omega⟩
  obtain ⟨e0, e1, e2, e3, e4, e5⟩ := block_indices t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- When the region ends its result array is the product of the two arrays it was entered with. -/
theorem result_eq (c : Dev nD) :
    (dat0 V c).arrAt 2 cfg0.N = product 100000 512 16 (V c main_arg0) (V c main_arg1) :=
  (dat0 V c).arrAt_eq_of_cover 2 (product 100000 512 16 (V c main_arg0) (V c main_arg1)) (fun t _ => flushed_eq V c t) covered

end Cert.KernelIdeal.Transform1

end
-- ==== Proof.Transform2.lean ====
/-
  The second feature transform, the hidden features h times the second weight matrix, as the kernel computes it: the 100000 rows are cut
  into 20 blocks of 5000 consecutive rows; grid point t loads block t of the left operand and the whole right operand,
  multiplies them (after a reshape of the left block to its own shape, which changes nothing), and writes the
  5000 × 7 product back as block t of the result. Over the extended
  reals a narrowing of the float format changes no value, so entry (r, q) of the product of block t is the sum over k
  of left[5000·t + r, k] · right[k, q]: block t of the product of the whole arrays. The 20 blocks tile the result
  (row i lies in block i / 5000), so when the region ends the result array IS that product, whatever the arrays held
  when the region was entered.
-/
import proofs.«172233_j54262616818367_1_alg».proof.Proof.Gen.KernelIdeal.Frame
import proofs.«172233_j54262616818367_1_alg».proof.Proof.GcnSpec
import Idealize.ShloMosaic.Lib.Pipeline.Value

set_option maxRecDepth 16384

noncomputable section

namespace Cert.KernelIdeal.Transform2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Gcn

-- the buffers' contents when the region is entered: any
variable (V : (c : Dev nD) → (b : Ref sig .tc) → Buf (Elt Ideal) ((c : Thread nD τ).loc b))

/-- A whole block is read and written from its corner. -/
theorem corner : (![0, 0] : Fin 2 → Nat) = fun _ => 0 := funext fun a => by fin_cases a <;> rfl

/-- What the body stores, at an entry (r, q): the sum over k of the loaded left block at (r, k) times the loaded right
    operand at (k, q). -/
theorem stored_apply (x0 : Vec Ideal S5000x16 .f32) (x1 : Vec Ideal S16x7 .f32) (j : S5000x7.Idx) :
    k1_pay1 x0 x1 j = ∑ k : Fin 16, x0 (ix2 (n0 := 5000) (n1 := 16) ⟨(j 0).val, (j 0).isLt⟩ k) * x1 (ix2 (n0 := 16) (n1 := 7) k ⟨(j 1).val, (j 1).isLt⟩) := by
  unfold k1_pay1
  -- a reshape to the same shape is the identity
  rw [shapeCast_self]
  exact PlainDot.matmul_zero_apply 5000 16 7 _ _ j

/-- Where the three windows' blocks lie, for each of the 20 grid points: the left operand's and the result's block t
    start at row block t and column block 0; the right operand's one block is the whole array. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the product of the whole arrays. -/
theorem flushed_eq (c : Dev nD) (t : Fin cfg1.N) :
    (dat1 V c).flushed 2 t
      = ((cfg1.win 2).blk t).view.read (Elt Ideal) (product 100000 16 7 (V c main_v47) (V c main_arg3)) := by
  show (cfg1.win 2).cut (grid1.coords t) ((dat1 V c).after 2 t) = _
  rw [after1_2]
  unfold out1_2
  rw [View.canon_unit_zero corner]
  simp only [View.ld_unit_zero (S := S5000x16) corner, View.ld_unit_zero (S := S16x7) corner]
  obtain ⟨e0, e1, e2, e3, e4, e5⟩ := block_indices t
  funext j
  show k1_pay1 (iblk1 V c 0 t) (iblk1 V c 1 t) j
    = product 100000 16 7 (V c main_v47) (V c main_arg3) (((cfg1.win 2).blk t).view.emb j)
  refine (stored_apply (iblk1 V c 0 t) (iblk1 V c 1 t) j).trans ?_
  unfold product
  refine Finset.sum_congr rfl fun k _ => ?_
  -- the left block's entry (r, k) is the left array's entry (5000·t + r, k)
  have hx : iblk1 V c 0 t (ix2 (n0 := 5000) (n1 := 16) ⟨(j 0).val, (j 0).isLt⟩ k)
      = V c main_v47 (ix2 (n0 := 100000) (n1 := 16)
          ⟨((((cfg1.win 2).blk t).view.emb j) 0).val, ((((cfg1.win 2).blk t).view.emb j) 0).isLt⟩ k) := by
    show V c main_v47 (((cfg1.win 0).blk t).view.emb (ix2 (n0 := 5000) (n1 := 16) ⟨(j 0).val, (j 0).isLt⟩ k)) = _
    refine congrArg (V c main_v47) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * k.val = k.val; omega
  -- the right operand's one block is the whole array
  have hw : iblk1 V c 1 t (ix2 (n0 := 16) (n1 := 7) k ⟨(j 1).val, (j 1).isLt⟩)
      = V c main_arg3 (ix2 (n0 := 16) (n1 := 7) k
          ⟨((((cfg1.win 2).blk t).view.emb j) 1).val, ((((cfg1.win 2).blk t).view.emb j) 1).isLt⟩) := by
    show V c main_arg3 (((cfg1.win 1).blk t).view.emb (ix2 (n0 := 16) (n1 := 7) k ⟨(j 1).val, (j 1).isLt⟩)) = _
    refine congrArg (V c main_arg3) (funext fun a => Fin.ext ?_)
    match a with
    | ⟨0, _⟩ => show win1_1.index t (0 : Fin 2) * 16 + 1 * k.val = k.val; omega
    | ⟨1, _⟩ => show win1_1.index t (1 : Fin 2) * 7 + 1 * (j 1).val = win1_2.index t (1 : Fin 2) * 7 + 1 * (j 1).val; omega
  rw [hx, hw]

/-- An index of the result array lies in point t's block iff each coordinate lies in the block's range on its axis. -/
theorem mem_block (t : Fin cfg1.N) (i : S100000x7.Idx) :
    i ∈ ((cfg1.win 2).blk t).view.set ↔ ∀ a : Fin 2, win1_2.index t a * S5000x7.size a ≤ (i a).val ∧ (i a).val < win1_2.index t a * S5000x7.size a + S5000x7.size a := by
  show i ∈ ((View.whole main_v48).slice (win1_2.rect t)).set ↔ _
  rw [View.set_slice_whole, Rect.mem_set_unit]
  exact Iff.rfl

/-- Every entry of the result lies in some point's block: row i in block i / 5000. -/
theorem covered (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  let t : Fin cfg1.N := ⟨(i 0).val / 5000, by show (i 0).val / 5000 < 20; omega⟩
  obtain ⟨e0, e1, e2, e3, e4, e5⟩ := block_indices t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 7 ≤ (i 1).val ∧ (i 1).val < win1_2.index t (1 : Fin 2) * 7 + 7; omega

/-- When the region ends its result array is the product of the two arrays it was entered with. -/
theorem result_eq (c : Dev nD) :
    (dat1 V c).arrAt 2 cfg1.N = product 100000 16 7 (V c main_v47) (V c main_arg3) :=
  (dat1 V c).arrAt_eq_of_cover 2 (product 100000 16 7 (V c main_v47) (V c main_arg3)) (fun t _ => flushed_eq V c t) covered

end Cert.KernelIdeal.Transform2

end
-- ==== Proof.KernelValue.lean ====
/-
  The idealized kernel's two results as the specification's functions (Proof/GcnSpec.lean) of the launch contents.
  Reading @main backwards from its return: layer 2's output is `logits` of region 1's result; region 1's result is the
  product of what it was entered with, layer 1's output h and W2; h is `hidden` of region 0's result; region 0's result
  is the product of x and W1, which no earlier step writes. The endpoints, the edge coefficients and the biases are
  written once, before region 0 (or never: the arguments), and read unchanged by both layers.
-/
import proofs.«172233_j54262616818367_1_alg».proof.Proof.Stretches
import proofs.«172233_j54262616818367_1_alg».proof.Proof.Transform1
import proofs.«172233_j54262616818367_1_alg».proof.Proof.Transform2

set_option maxRecDepth 16384

noncomputable section

namespace Cert.KernelIdeal.AsSpec

open Idealize.ShloMosaic Idealize.ShloMosaic.TcCoe Idealize.SL.Sem
open Idealize.ShloMosaic.Pipeline (Dat Cfg Window)
open Cert.KernelIdeal Cert.KernelIdeal.Gen Cert.KernelIdeal.Gcn Cert.KernelIdeal.Stretches

variable (m : (ℓ : Loc nD τ sig) → Buf (Elt Ideal) ℓ) (ρ : Dev nD → PrngReg) (c : Dev nD)

/-- Layer 1's output as a function of the launch contents. -/
def kerHidden : (⟨S100000x16, .f32⟩ : BufTy).Contents (Elt Ideal) :=
  hidden (F := Ideal) (product 100000 512 16 (m ((c : Thread nD τ).loc main_arg0)) (m ((c : Thread nD τ).loc main_arg1)))
    (sources (F := Ideal) (m ((c : Thread nD τ).loc main_arg5))) (targets (F := Ideal) (m ((c : Thread nD τ).loc main_arg5)))
    (coefficient (F := Ideal) (sources (F := Ideal) (m ((c : Thread nD τ).loc main_arg5))) (targets (F := Ideal) (m ((c : Thread nD τ).loc main_arg5))))
    (m ((c : Thread nD τ).loc main_arg2))

/-- Region 0 leaves x·W1 in its result array: it is entered with the arguments as launched. -/
theorem transform1_eq : W4 m ρ c (Proc.devRef .tc main_v30) = product 100000 512 16 (m ((c : Thread nD τ).loc main_arg0)) (m ((c : Thread nD τ).loc main_arg1)) := by
  refine (W4_arr m ρ c 2).trans ((Transform1.result_eq (V3 m ρ) c).trans ?_)
  show product 100000 512 16 (W3 m ρ c (Proc.devRef .tc main_arg0)) (W3 m ρ c (Proc.devRef .tc main_arg1)) = _
  rw [arg0_at_entry0, arg1_at_entry0]

/-- What region 1 is entered with as its left operand: layer 1's output. -/
theorem hidden_at_entry1_eq : W6 m ρ c (Proc.devRef .tc main_v47) = kerHidden m c := by
  rw [hidden_at_entry1, transform1_eq, W4_of_ne m ρ c main_v3 (by decide), W4_of_ne m ρ c main_v6 (by decide),
    W4_of_ne m ρ c main_v29 (by decide), W4_of_ne m ρ c main_arg2 (by decide),
    sources_at_entry0, targets_at_entry0, coefficient_at_entry0, arg2_at_entry0]
  rfl

/-- THE FIRST RESULT. Region 1 only reads layer 1's output (its left operand), and layer 2 does not write it. -/
theorem result0_eq : W8 m ρ c (Proc.devRef .tc main_v47) = kerHidden m c :=
  (hidden_at_return m ρ c).trans
    (((W7_arr m ρ c 0).trans (((dat1 (V6 m ρ) c).arrAt_in 0 rfl _).trans (A_eq1 (V6 m ρ) c 0))).trans (hidden_at_entry1_eq m ρ c))

/-- Region 1 leaves h·W2 in its result array. -/
theorem transform2_eq : W7 m ρ c (Proc.devRef .tc main_v48) = product 100000 16 7 (kerHidden m c) (m ((c : Thread nD τ).loc main_arg3)) := by
  refine (W7_arr m ρ c 2).trans ((Transform2.result_eq (V6 m ρ) c).trans ?_)
  show product 100000 16 7 (W6 m ρ c (Proc.devRef .tc main_v47)) (W6 m ρ c (Proc.devRef .tc main_arg3)) = _
  rw [hidden_at_entry1_eq, (kept_through_layer1 m ρ c).2.2.2.1, W4_of_ne m ρ c main_arg3 (by decide), arg3_at_entry0]

/-- Layer 2's output as a function of the launch contents. -/
def kerLogits : (⟨S100000x7, .f32⟩ : BufTy).Contents (Elt Ideal) :=
  logits (F := Ideal) (product 100000 16 7 (kerHidden m c) (m ((c : Thread nD τ).loc main_arg3)))
    (sources (F := Ideal) (m ((c : Thread nD τ).loc main_arg5))) (targets (F := Ideal) (m ((c : Thread nD τ).loc main_arg5)))
    (coefficient (F := Ideal) (sources (F := Ideal) (m ((c : Thread nD τ).loc main_arg5))) (targets (F := Ideal) (m ((c : Thread nD τ).loc main_arg5))))
    (m ((c : Thread nD τ).loc main_arg4))

/-- THE SECOND RESULT. -/
theorem result1_eq : W8 m ρ c (Proc.devRef .tc main_v64)
    = logits (F := Ideal) (product 100000 16 7 (kerHidden m c) (m ((c : Thread nD τ).loc main_arg3)))
        (sources (F := Ideal) (m ((c : Thread nD τ).loc main_arg5))) (targets (F := Ideal) (m ((c : Thread nD τ).loc main_arg5)))
        (coefficient (F := Ideal) (sources (F := Ideal) (m ((c : Thread nD τ).loc main_arg5))) (targets (F := Ideal) (m ((c : Thread nD τ).loc main_arg5))))
        (m ((c : Thread nD τ).loc main_arg4)) := by
  obtain ⟨k3, k6, k29, -, k4⟩ := kept_through_layer1 m ρ c
  rw [logits_at_return, transform2_eq,
    W7_of_ne m ρ c main_v3 (by decide), W7_of_ne m ρ c main_v6 (by decide), W7_of_ne m ρ c main_v29 (by decide), W7_of_ne m ρ c main_arg4 (by decide),
    k3, k6, k29, k4,
    W4_of_ne m ρ c main_v3 (by decide), W4_of_ne m ρ c main_v6 (by decide), W4_of_ne m ρ c main_v29 (by decide), W4_of_ne m ρ c main_arg4 (by decide),
    sources_at_entry0, targets_at_entry0, coefficient_at_entry0, arg4_at_entry0]

end Cert.KernelIdeal.AsSpec

end
-- ==== Proof.RefValue.lean ====
/-
  The reference's two results as the specification's functions (Proof/GcnSpec.lean). Its @main is the same host
  operations as the kernel's with each feature transform one host matrix product; read over the extended reals that
  product is the sum over the contracted coordinate (entry (r, q) of x·w is the sum over k of x[r, k] · w[k, q]), which
  is the specification's `product`. The rest of each result's term is, operation for operation, the specification's
  `hidden` and `logits` of the endpoints, the edge coefficients and the bias: the two programs' shape and
  dimension-number records carry the same numbers, so the terms agree by unfolding.
-/
import proofs.«172233_j54262616818367_1_alg».proof.Proof.RefRun
import proofs.«172233_j54262616818367_1_alg».proof.Proof.GcnSpec

set_option maxRecDepth 16384

noncomputable section

namespace Cert.ReferenceIdeal.AsSpec

open Idealize.ShloMosaic Idealize.ShloMosaic.TcCoe Idealize.SL.Sem
open Cert.KernelIdeal.Gcn

/-- The host's product of a 100000 × 512 array with a 512 × 16 one is the specification's product. -/
theorem product1 (x : FVec Ideal Cert.ReferenceIdeal.S100000x512 .f32) (w : FVec Ideal Cert.ReferenceIdeal.S512x16 .f32) :
    Host.dotGeneral Cert.ReferenceIdeal.dot_S100000x512_S512x16_S100000x16_1_0_0_1_n_n none x w = product 100000 512 16 x w := by
  funext j
  exact PlainDot.dotGeneral_apply 100000 512 16 _ x w j

/-- The host's product of a 100000 × 16 array with a 16 × 7 one is the specification's product. -/
theorem product2 (x : FVec Ideal Cert.ReferenceIdeal.S100000x16 .f32) (w : FVec Ideal Cert.ReferenceIdeal.S16x7 .f32) :
    Host.dotGeneral Cert.ReferenceIdeal.dot_S100000x16_S16x7_S100000x7_1_0_0_1_n_n none x w = product 100000 16 7 x w := by
  funext j
  exact PlainDot.dotGeneral_apply 100000 16 7 _ x w j

variable (m : (ℓ : Loc Cert.ReferenceIdeal.nD Cert.ReferenceIdeal.τ Cert.ReferenceIdeal.sig) → Buf (Elt Ideal) ℓ) (c : Dev Cert.ReferenceIdeal.nD)

/-- Layer 1's output in the reference. -/
def refHidden : (⟨Cert.KernelIdeal.S100000x16, .f32⟩ : BufTy).Contents (Elt Ideal) :=
  hidden (F := Ideal) (product 100000 512 16 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
    (sources (F := Ideal) (m ((c.tc : Thread Cert.ReferenceIdeal.nD Cert.ReferenceIdeal.τ).loc Cert.ReferenceIdeal.main_arg5))) (targets (F := Ideal) (m ((c.tc : Thread Cert.ReferenceIdeal.nD Cert.ReferenceIdeal.τ).loc Cert.ReferenceIdeal.main_arg5)))
    (coefficient (F := Ideal) (sources (F := Ideal) (m ((c.tc : Thread Cert.ReferenceIdeal.nD Cert.ReferenceIdeal.τ).loc Cert.ReferenceIdeal.main_arg5))) (targets (F := Ideal) (m ((c.tc : Thread Cert.ReferenceIdeal.nD Cert.ReferenceIdeal.τ).loc Cert.ReferenceIdeal.main_arg5))))
    (m ((c.tc : Thread Cert.ReferenceIdeal.nD Cert.ReferenceIdeal.τ).loc Cert.ReferenceIdeal.main_arg2))

/-- The reference's first result is `hidden` of the product x·W1. -/
theorem result0_eq : Cert.ReferenceIdeal.RunP.res_main_v47 (F := Ideal) m c = refHidden m c := by
  have h : Cert.ReferenceIdeal.RunP.res_main_v47 (F := Ideal) m c
      = hidden (F := Ideal) (Host.dotGeneral (F := Ideal) (φ₁ := .f32) (φ₂ := .f32) Cert.ReferenceIdeal.dot_S100000x512_S512x16_S100000x16_1_0_0_1_n_n none (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) : FVec Ideal Cert.KernelIdeal.S100000x16 .f32)
          (sources (F := Ideal) (m ((c.tc : Thread Cert.ReferenceIdeal.nD Cert.ReferenceIdeal.τ).loc Cert.ReferenceIdeal.main_arg5))) (targets (F := Ideal) (m ((c.tc : Thread Cert.ReferenceIdeal.nD Cert.ReferenceIdeal.τ).loc Cert.ReferenceIdeal.main_arg5)))
          (coefficient (F := Ideal) (sources (F := Ideal) (m ((c.tc : Thread Cert.ReferenceIdeal.nD Cert.ReferenceIdeal.τ).loc Cert.ReferenceIdeal.main_arg5))) (targets (F := Ideal) (m ((c.tc : Thread Cert.ReferenceIdeal.nD Cert.ReferenceIdeal.τ).loc Cert.ReferenceIdeal.main_arg5))))
          (m ((c.tc : Thread Cert.ReferenceIdeal.nD Cert.ReferenceIdeal.τ).loc Cert.ReferenceIdeal.main_arg2)) := by
    unfold Cert.ReferenceIdeal.RunP.res_main_v47
    rfl
  rw [h, product1]
  rfl

/-- The reference's second result is `logits` of the product h·W2, h its first result. -/
theorem result1_eq : Cert.ReferenceIdeal.RunP.res_main_v64 (F := Ideal) m c
    = logits (F := Ideal) (product 100000 16 7 (refHidden m c) (m ((c.tc : Thread Cert.ReferenceIdeal.nD Cert.ReferenceIdeal.τ).loc Cert.ReferenceIdeal.main_arg3)))
        (sources (F := Ideal) (m ((c.tc : Thread Cert.ReferenceIdeal.nD Cert.ReferenceIdeal.τ).loc Cert.ReferenceIdeal.main_arg5))) (targets (F := Ideal) (m ((c.tc : Thread Cert.ReferenceIdeal.nD Cert.ReferenceIdeal.τ).loc Cert.ReferenceIdeal.main_arg5)))
        (coefficient (F := Ideal) (sources (F := Ideal) (m ((c.tc : Thread Cert.ReferenceIdeal.nD Cert.ReferenceIdeal.τ).loc Cert.ReferenceIdeal.main_arg5))) (targets (F := Ideal) (m ((c.tc : Thread Cert.ReferenceIdeal.nD Cert.ReferenceIdeal.τ).loc Cert.ReferenceIdeal.main_arg5))))
        (m ((c.tc : Thread Cert.ReferenceIdeal.nD Cert.ReferenceIdeal.τ).loc Cert.ReferenceIdeal.main_arg4)) := by
  have h : Cert.ReferenceIdeal.RunP.res_main_v64 (F := Ideal) m c
      = logits (F := Ideal) (Host.dotGeneral (F := Ideal) (φ₁ := .f32) (φ₂ := .f32) Cert.ReferenceIdeal.dot_S100000x16_S16x7_S100000x7_1_0_0_1_n_n none
            (Cert.ReferenceIdeal.RunP.res_main_v47 (F := Ideal) m c) (m ((c.tc : Thread Cert.ReferenceIdeal.nD Cert.ReferenceIdeal.τ).loc Cert.ReferenceIdeal.main_arg3)) : FVec Ideal Cert.KernelIdeal.S100000x7 .f32)
          (sources (F := Ideal) (m ((c.tc : Thread Cert.ReferenceIdeal.nD Cert.ReferenceIdeal.τ).loc Cert.ReferenceIdeal.main_arg5))) (targets (F := Ideal) (m ((c.tc : Thread Cert.ReferenceIdeal.nD Cert.ReferenceIdeal.τ).loc Cert.ReferenceIdeal.main_arg5)))
          (coefficient (F := Ideal) (sources (F := Ideal) (m ((c.tc : Thread Cert.ReferenceIdeal.nD Cert.ReferenceIdeal.τ).loc Cert.ReferenceIdeal.main_arg5))) (targets (F := Ideal) (m ((c.tc : Thread Cert.ReferenceIdeal.nD Cert.ReferenceIdeal.τ).loc Cert.ReferenceIdeal.main_arg5))))
          (m ((c.tc : Thread Cert.ReferenceIdeal.nD Cert.ReferenceIdeal.τ).loc Cert.ReferenceIdeal.main_arg4)) := by
    unfold Cert.ReferenceIdeal.RunP.res_main_v64 Cert.ReferenceIdeal.RunP.res_main_v47
    rfl
  rw [h, product2, result0_eq]

end Cert.ReferenceIdeal.AsSpec

end
-- ==== Proof.lean ====
/-
  The certificate of a two-layer graph convolution over 100000 nodes and 3200000 directed edges: a Pallas program whose
  two feature transforms (x·W1 and h·W2) are TensorCore kernels, against a plain jnp reference. Both programs run the
  same host operations — the edges' endpoints with self loops appended, the degrees and the symmetric normalisation
  deg^(-1/2) at both ends of an edge, a gather of the transformed rows, their scaling and a scatter-add at the targets,
  the bias, and relu after layer 1 — and differ only in the transform: the kernel cuts the 100000 rows into 20 blocks
  of 5000 and multiplies each block by the weight matrix on the matrix unit, inputs narrowed to bf16 and accumulated
  from zero; the reference applies one host matrix product.

  Over the extended reals a change of float format is the identity and both products read at an entry (r, q) are the
  sum over k of left[r, k] · right[k, q]; the 20 blocks tile the result. So each kernel region leaves the same array as
  the reference's product (Proof/Transform1.lean, Proof/Transform2.lean), every other operation is shared
  (Proof/GcnSpec.lean names them once; Proof/Stretches.lean and Proof/KernelValue.lean read the kernel's buffers back
  to them, Proof/RefValue.lean the reference's terms), and the two results agree entry by entry, with no use of the
  inputs' finiteness: nothing is distributed or cancelled, only the same sums are formed.

  The three frames are the runs themselves with the results dropped; no operation was rewritten when the kernel was
  idealized, so its idealization claim is empty.
-/
import proofs.«172233_j54262616818367_1_alg».proof.Defs
import proofs.«172233_j54262616818367_1_alg».proof.Proof.Gen.Kernel
import proofs.«172233_j54262616818367_1_alg».proof.Proof.Gen.Kernel.Frame
import proofs.«172233_j54262616818367_1_alg».proof.Proof.Gen.KernelIdeal
import proofs.«172233_j54262616818367_1_alg».proof.Proof.Gen.KernelIdeal.Frame
import proofs.«172233_j54262616818367_1_alg».proof.Proof.Gen.ReferenceIdeal
import proofs.«172233_j54262616818367_1_alg».proof.Proof.Gen.Pre_finite_inputs
import proofs.«172233_j54262616818367_1_alg».proof.Proof.KernelRun
import proofs.«172233_j54262616818367_1_alg».proof.Proof.KernelValue
import proofs.«172233_j54262616818367_1_alg».proof.Proof.RefRun
import proofs.«172233_j54262616818367_1_alg».proof.Proof.RefValue
import Idealize.ShloMosaic.Adequacy
import Idealize.ShloMosaic.Init

noncomputable section

namespace Cert.Proof

open Idealize.ShloMosaic Idealize.SL.Sem

/-! ## The frames -/

theorem frame_kernel : Cert.frame_Kernel := fun m ρ _ => Cert.Kernel.Gen.frame m ρ
theorem frame_kernelIdeal : Cert.frame_KernelIdeal := fun m ρ _ => Cert.KernelIdeal.Gen.frame m ρ
/-- The reference's run with its two results dropped. -/
theorem frame_referenceIdeal : Cert.frame_ReferenceIdeal := fun m ρ _ =>
  (θ_run Cert.ReferenceIdeal.defs _ _).mono (fun _ h c => (h c).2.2) (Cert.ReferenceIdeal.RunP.run (F := Ideal) m ρ)

/-! ## The two results agree -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include hagree in
/-- Layer 1's output is the same function of the arguments in both programs. -/
theorem hidden_agree : Cert.ReferenceIdeal.AsSpec.refHidden m' c = Cert.KernelIdeal.AsSpec.kerHidden m c := by
  obtain ⟨a0, a1, a2, a3, a4, a5⟩ := hagree
  unfold Cert.ReferenceIdeal.AsSpec.refHidden Cert.KernelIdeal.AsSpec.kerHidden
  rw [a0, a1, a2, a5]

include hagree in
/-- And so is layer 2's. -/
theorem logits_agree : Cert.ReferenceIdeal.RunP.res_main_v64 (F := Ideal) m' c = Cert.KernelIdeal.AsSpec.kerLogits m c := by
  rw [Cert.ReferenceIdeal.AsSpec.result1_eq, hidden_agree m m' c hagree]
  obtain ⟨a0, a1, a2, a3, a4, a5⟩ := hagree
  unfold Cert.KernelIdeal.AsSpec.kerLogits
  rw [a3, a4, a5]

end Agree

/-- Run from memories that agree on the arguments, both idealized programs end with layer 1's output and layer 2's
    output at the same functions of the arguments. -/
theorem algebraic : Cert.algebraic_KernelIdeal_ReferenceIdeal := by
  intro m ρ m' ρ' _ hagree
  refine ⟨fun c => Cert.KernelIdeal.AsSpec.kerHidden m c, fun c => Cert.KernelIdeal.AsSpec.kerLogits m c, ?_, ?_⟩
  · refine (θ_run Cert.KernelIdeal.defs _ _).mono (fun r h c => ?_) (Cert.KernelIdeal.Named.run (F := Ideal) m ρ)
    obtain ⟨h0, h1, hargs⟩ := h c
    exact ⟨h0.trans (Cert.KernelIdeal.AsSpec.result0_eq m ρ c), h1.trans (Cert.KernelIdeal.AsSpec.result1_eq m ρ c), hargs⟩
  · refine (θ_run Cert.ReferenceIdeal.defs _ _).mono (fun r h c => ?_) (Cert.ReferenceIdeal.RunP.run (F := Ideal) m' ρ')
    obtain ⟨h0, h1, hargs⟩ := h c
    exact ⟨h0.trans ((Cert.ReferenceIdeal.AsSpec.result0_eq m' c).trans (hidden_agree m m' c (hagree c))),
      h1.trans (logits_agree m m' c (hagree c)), hargs⟩

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
